-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S256x128 : Shape := ⟨2, ![256, 128]⟩
abbrev S256 : Shape := ⟨1, ![256]⟩
abbrev S50x256 : Shape := ⟨2, ![50, 256]⟩
abbrev S50 : Shape := ⟨1, ![50]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S50x256 : S_.BroadcastsInDim S50x256 (![] : Fin 0 → Fin S50x256.rank)
  reducesTo_S50x256_S_d0_1 : S50x256.ReducesTo [0, 1] S_
  bcast_S_S50 : S_.BroadcastsInDim S50 (![] : Fin 0 → Fin S50.rank)
  reducesTo_S50_S_d0 : S50.ReducesTo [0] S_

variable [Facts]

def fn_part1 {F : FTy → Type} [FloatOps F] (main_arg5 : FVec F S50x256 .f32) (main_arg6 : FVec F S50 .f32) (main_arg7 : FVec F S50x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S50x256 .f32 := Host.absf main_arg5
  let main_cst_6 : FVec F S_ .f32 := constant S_ .f32 0x7F800000#32
  let main_v20 : FVec F S50x256 .f32 := broadcastInDim S50x256 ![] bcast_S_S50x256 main_cst_6
  let main_v21 : IVec S50x256 1 := cmpf .olt main_v19 main_v20
  let main_c_7 : IVec S_ 1 := constantI S_ 1 1#1
  let main_v22 : IVec S_ 1 := (fun x v => Host.reduce IntOp.andi x v reducesTo_S50x256_S_d0_1 h_S_) main_v21 main_c_7
  let main_v23 : IVec S_ 1 := andi main_v18 main_v22
  let main_v24 : FVec F S50 .f32 := Host.absf main_arg6
  let main_cst_8 : FVec F S_ .f32 := constant S_ .f32 0x7F800000#32
  let main_v25 : FVec F S50 .f32 := broadcastInDim S50 ![] bcast_S_S50 main_cst_8
  let main_v26 : IVec S50 1 := cmpf .olt main_v24 main_v25
  let main_c_9 : IVec S_ 1 := constantI S_ 1 1#1
  let main_v27 : IVec S_ 1 := (fun x v => Host.reduce IntOp.andi x v reducesTo_S50_S_d0 h_S_) main_v26 main_c_9
  let main_v28 : IVec S_ 1 := andi main_v23 main_v27
  let main_v29 : FVec F S50x256 .f32 := Host.absf main_arg7
  let main_cst_10 : FVec F S_ .f32 := constant S_ .f32 0x7F800000#32
  let main_v30 : FVec F S50x256 .f32 := broadcastInDim S50x256 ![] bcast_S_S50x256 main_cst_10
  let main_v31 : IVec S50x256 1 := cmpf .olt main_v29 main_v30
  let main_c_11 : IVec S_ 1 := constantI S_ 1 1#1
  let main_v32 : IVec S_ 1 := (fun x v => Host.reduce IntOp.andi x v reducesTo_S50x256_S_d0_1 h_S_) main_v31 main_c_11
  let main_v33 : IVec S_ 1 := andi main_v28 main_v32
  main_v33

def fn {F : FTy → Type} [FloatOps F] (main_arg0 : FVec F S100000x128 .f32) (main_arg1 : IVec S2x640000 32) (main_arg2 : FVec F S256x128 .f32) (main_arg3 : FVec F S256 .f32) (main_arg4 : FVec F S256x128 .f32) (main_arg5 : FVec F S50x256 .f32) (main_arg6 : FVec F S50 .f32) (main_arg7 : FVec F S50x256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S100000x128 : Shape := ⟨2, ![100000, 128]⟩
abbrev S2x640000 : Shape := ⟨2, ![2, 640000]⟩
abbrev S256x128 : Shape := ⟨2, ![256, 128]⟩
abbrev S256 : Shape := ⟨1, ![256]⟩
abbrev S50x256 : Shape := ⟨2, ![50, 256]⟩
abbrev S50 : Shape := ⟨1, ![50]⟩
abbrev S1x640000 : Shape := ⟨2, ![1, 640000]⟩
abbrev S640000 : Shape := ⟨1, ![640000]⟩
abbrev S128x256 : Shape := ⟨2, ![128, 256]⟩
abbrev S256x50 : Shape := ⟨2, ![256, 50]⟩
abbrev S_ : Shape := ⟨0, ![]⟩
abbrev S640000x1 : Shape := ⟨2, ![640000, 1]⟩
abbrev S640000x128 : Shape := ⟨2, ![640000, 128]⟩
abbrev S1x256 : Shape := ⟨2, ![1, 256]⟩
abbrev S100000x256 : Shape := ⟨2, ![100000, 256]⟩
abbrev S5000x128 : Shape := ⟨2, ![5000, 128]⟩
abbrev S5000x256 : Shape := ⟨2, ![5000, 256]⟩
abbrev S640000x256 : Shape := ⟨2, ![640000, 256]⟩
abbrev S1x50 : Shape := ⟨2, ![1, 50]⟩
abbrev S100000x50 : Shape := ⟨2, ![100000, 50]⟩
abbrev S5000x50 : Shape := ⟨2, ![5000, 50]⟩

abbrev nBuf : Space → Nat
  | .hbm => 46
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S50x256, .f32⟩
  | .hbm, ⟨6, _⟩ => ⟨S50, .f32⟩
  | .hbm, ⟨7, _⟩ => ⟨S50x256, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S128x256, .f32⟩
  | .hbm, ⟨13, _⟩ => ⟨S128x256, .f32⟩
  | .hbm, ⟨14, _⟩ => ⟨S256x50, .f32⟩
  | .hbm, ⟨15, _⟩ => ⟨S256x50, .f32⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S640000, .i32⟩
  | .hbm, ⟨23, _⟩ => ⟨S640000x1, .i32⟩
  | .hbm, ⟨24, _⟩ => ⟨S640000x128, .f32⟩
  | .hbm, ⟨25, _⟩ => ⟨S_, .f32⟩
  | .hbm, ⟨26, _⟩ => ⟨S100000x128, .f32⟩
  | .hbm, ⟨27, _⟩ => ⟨S640000x1, .i32⟩
  | .hbm, ⟨28, _⟩ => ⟨S100000x128, .f32⟩
  | .hbm, ⟨29, _⟩ => ⟨S1x256, .f32⟩
  | .hbm, ⟨30, _⟩ => ⟨S100000x256, .f32⟩
  | .hbm, ⟨31, _⟩ => ⟨S_, .i32⟩
  | .hbm, ⟨32, _⟩ => ⟨S640000, .i32⟩
  | .hbm, ⟨33, _⟩ => ⟨S640000, .i1⟩
  | .hbm, ⟨34, _⟩ => ⟨S_, .i32⟩
  | .hbm, ⟨35, _⟩ => ⟨S640000, .i32⟩
  | .hbm, ⟨36, _⟩ => ⟨S640000, .i32⟩
  | .hbm, ⟨37, _⟩ => ⟨S640000, .i32⟩
  | .hbm, ⟨38, _⟩ => ⟨S640000x1, .i32⟩
  | .hbm, ⟨39, _⟩ => ⟨S640000x256, .f32⟩
  | .hbm, ⟨40, _⟩ => ⟨S_, .f32⟩
  | .hbm, ⟨41, _⟩ => ⟨S100000x256, .f32⟩
  | .hbm, ⟨42, _⟩ => ⟨S640000x1, .i32⟩
  | .hbm, ⟨43, _⟩ => ⟨S100000x256, .f32⟩
  | .hbm, ⟨44, _⟩ => ⟨S1x50, .f32⟩
  | .hbm, ⟨45, _⟩ => ⟨S100000x50, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x256, .f32⟩
  | .local _ .vmem, ⟨5, _⟩ => ⟨S1x256, .f32⟩
  | .local _ .vmem, ⟨6, _⟩ => ⟨S128x256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S256x50, .f32⟩
  | .local _ .vmem, ⟨14, _⟩ => ⟨S1x50, .f32⟩
  | .local _ .vmem, ⟨15, _⟩ => ⟨S256x50, .f32⟩
  | .local _ .vmem, ⟨16, _⟩ => ⟨S5000x50, .f32⟩
  | .local _ .vmem, ⟨17, _⟩ => ⟨S5000x50, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x50 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x50 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x50 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x50 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  transposes_S256x128_S128x256_1_0 : S256x128.Transposes [1, 0] S128x256
  transposes_S50x256_S256x50_1_0 : S50x256.Transposes [1, 0] S256x50
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S100000x256 : S_.BroadcastsInDim S100000x256 (![] : Fin 0 → Fin S100000x256.rank)
  shapeCasts_S50_S1x50 : S50.ShapeCasts S1x50
  shapeCasts_S5000x256_S5000x256 : S5000x256.ShapeCasts S5000x256
  inb_S256x50_S256x50_0_0 : ∀ a, (![0, 0] : Fin 2 → Nat) a + S256x50.size a ≤ S256x50.size a
  h_S256x50 : 0 < S256x50.numel
  shapeCasts_S256x50_S256x50 : S256x50.ShapeCasts S256x50
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S5000x50 : S1x50.Broadcasts S5000x50
  inb_S5000x50_S5000x50_0_0 : ∀ a, (![0, 0] : Fin 2 → Nat) a + S5000x50.size a ≤ S5000x50.size a
  h_S5000x50 : 0 < S5000x50.numel
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x256_S5000x256_1_0_0_1_n_n_wf : DotDims.WF S5000x128 S128x256 S5000x256 [1] [0] [0] [1] [] []
  gather_S100000x256_S640000x1_S640000x256_1_0_n_n_0_1_1256_wf : GatherDims.WF S100000x256 S640000x1 S640000x256 [1] [0] [] [0] [] 1 ![1, 256]
  scatter_S100000x256_S640000x1_S640000x256_1_0_0_1_wf : ScatterDims.WF S100000x256 S640000x1 S640000x256 [1] [0] [0] 1
  dot_S5000x256_S256x50_S5000x50_1_0_0_1_n_n_wf : DotDims.WF S5000x256 S256x50 S5000x50 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S100000x256.size a
  hwx0_5 : ∀ i : grid0.Coords, EltTy.bits .f32 = 32 ∨ (Rect.block (s := S100000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S100000x256.size a
  hwx1_1 : ∀ i : grid1.Coords, EltTy.bits .f32 = 32 ∨ (Rect.block (s := S100000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x50.size a ≤ S256x50.size a
  hwx1_2 : ∀ i : grid1.Coords, EltTy.bits .f32 = 32 ∨ (Rect.block (s := S256x50) S256x50.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x50.size a ≤ S1x50.size a
  hwx1_3 : ∀ i : grid1.Coords, EltTy.bits .f32 = 32 ∨ (Rect.block (s := S1x50) S1x50.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x50.size a ≤ S256x50.size a
  hwx1_4 : ∀ i : grid1.Coords, EltTy.bits .f32 = 32 ∨ (Rect.block (s := S256x50) S256x50.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x50.size a ≤ S100000x50.size a
  hwx1_5 : ∀ i : grid1.Coords, EltTy.bits .f32 = 32 ∨ (Rect.block (s := S100000x50) S5000x50.size (cc1_transform_5 i) (hinb1_5 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S100000x256_S640000x1_S640000x256_1_0_n_n_0_1_1256 : GatherDims S100000x256 S640000x1 S640000x256 where
  offsetDims := [1]
  collapsedSliceDims := [0]
  operandBatchingDims := []
  startIndicesBatchingDims := []
  startIndexMap := [0]
  indexVectorDim := 1
  sliceSizes := ![1, 256]
  wf := gather_S100000x256_S640000x1_S640000x256_1_0_n_n_0_1_1256_wf
def scatter_S100000x256_S640000x1_S640000x256_1_0_0_1 : ScatterDims S100000x256 S640000x1 S640000x256 where
  updateWindowDims := [1]
  insertedWindowDims := [0]
  scatterDimsToOperandDims := [0]
  indexVectorDim := 1
  wf := scatter_S100000x256_S640000x1_S640000x256_1_0_0_1_wf
def dot_S5000x256_S256x50_S5000x50_1_0_0_1_n_n : DotDims S5000x256 S256x50 S5000x50 where
  lhsContracting := [1]
  rhsContracting := [0]
  lhsNonContracting := [0]
  rhsNonContracting := [1]
  lhsBatch := []
  rhsBatch := []
  wf := dot_S5000x256_S256x50_S5000x50_1_0_0_1_n_n_wf

abbrev win0_0 : Pipeline.Window sig grid0 :=
  Pipeline.Window.ofSpec (Memref.whole main_v17) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v29) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S256x50.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x50.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S256x50.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x50.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S256x128 : Shape := ⟨2, ![256, 128]⟩
abbrev S256 : Shape := ⟨1, ![256]⟩
abbrev S50x256 : Shape := ⟨2, ![50, 256]⟩
abbrev S50 : Shape := ⟨1, ![50]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S128x256 : Shape := ⟨2, ![128, 256]⟩
abbrev S100000x256 : Shape := ⟨2, ![100000, 256]⟩
abbrev S1x256 : Shape := ⟨2, ![1, 256]⟩
abbrev S640000x256 : Shape := ⟨2, ![640000, 256]⟩
abbrev S256x50 : Shape := ⟨2, ![256, 50]⟩
abbrev S100000x50 : Shape := ⟨2, ![100000, 50]⟩
abbrev S1x50 : Shape := ⟨2, ![1, 50]⟩

abbrev nBuf : Space → Nat
  | .hbm => 61
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S50x256, .f32⟩
  | .hbm, ⟨6, _⟩ => ⟨S50, .f32⟩
  | .hbm, ⟨7, _⟩ => ⟨S50x256, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S128x256, .f32⟩
  | .hbm, ⟨26, _⟩ => ⟨S100000x256, .f32⟩
  | .hbm, ⟨27, _⟩ => ⟨S1x256, .f32⟩
  | .hbm, ⟨28, _⟩ => ⟨S100000x256, .f32⟩
  | .hbm, ⟨29, _⟩ => ⟨S100000x256, .f32⟩
  | .hbm, ⟨30, _⟩ => ⟨S128x256, .f32⟩
  | .hbm, ⟨31, _⟩ => ⟨S100000x256, .f32⟩
  | .hbm, ⟨32, _⟩ => ⟨S100000x256, .f32⟩
  | .hbm, ⟨33, _⟩ => ⟨S_, .f32⟩
  | .hbm, ⟨34, _⟩ => ⟨S100000x256, .f32⟩
  | .hbm, ⟨35, _⟩ => ⟨S100000x256, .f32⟩
  | .hbm, ⟨36, _⟩ => ⟨S1x640000, .i32⟩
  | .hbm, ⟨37, _⟩ => ⟨S640000, .i32⟩
  | .hbm, ⟨38, _⟩ => ⟨S1x640000, .i32⟩
  | .hbm, ⟨39, _⟩ => ⟨S640000, .i32⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S640000x256, .f32⟩
  | .hbm, ⟨49, _⟩ => ⟨S_, .f32⟩
  | .hbm, ⟨50, _⟩ => ⟨S100000x256, .f32⟩
  | .hbm, ⟨51, _⟩ => ⟨S640000x1, .i32⟩
  | .hbm, ⟨52, _⟩ => ⟨S100000x256, .f32⟩
  | .hbm, ⟨53, _⟩ => ⟨S256x50, .f32⟩
  | .hbm, ⟨54, _⟩ => ⟨S100000x50, .f32⟩
  | .hbm, ⟨55, _⟩ => ⟨S1x50, .f32⟩
  | .hbm, ⟨56, _⟩ => ⟨S100000x50, .f32⟩
  | .hbm, ⟨57, _⟩ => ⟨S100000x50, .f32⟩
  | .hbm, ⟨58, _⟩ => ⟨S256x50, .f32⟩
  | .hbm, ⟨59, _⟩ => ⟨S100000x50, .f32⟩
  | .hbm, ⟨60, _⟩ => ⟨S100000x50, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_1 : Ref sig .tc := ⟨.hbm, 40, rfl⟩
abbrev main_v27 : Ref sig .tc := ⟨.hbm, 41, rfl⟩
abbrev main_v28 : Ref sig .tc := ⟨.hbm, 42, rfl⟩
abbrev main_c_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  transposes_S50x256_S256x50_1_0 : S50x256.Transposes [1, 0] S256x50
  bcast_S50_S1x50_1 : S50.BroadcastsInDim S1x50 (![1] : Fin 1 → Fin S1x50.rank)
  bcast_S1x50_S100000x50_0_1 : S1x50.BroadcastsInDim S100000x50 (![0, 1] : Fin 2 → Fin S100000x50.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x256_S100000x256_1_0_0_1_n_n_wf : DotDims.WF S100000x128 S128x256 S100000x256 [1] [0] [0] [1] [] []
  gather_S100000x256_S640000x1_S640000x256_1_0_n_n_0_1_1256_wf : GatherDims.WF S100000x256 S640000x1 S640000x256 [1] [0] [] [0] [] 1 ![1, 256]
  scatter_S100000x256_S640000x1_S640000x256_1_0_0_1_wf : ScatterDims.WF S100000x256 S640000x1 S640000x256 [1] [0] [0] 1
  dot_S100000x256_S256x50_S100000x50_1_0_0_1_n_n_wf : DotDims.WF S100000x256 S256x50 S100000x50 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S640000x1_S640000x256_1_0_n_n_0_1_1256 : GatherDims S100000x256 S640000x1 S640000x256 where
  offsetDims := [1]
  collapsedSliceDims := [0]
  operandBatchingDims := []
  startIndicesBatchingDims := []
  startIndexMap := [0]
  indexVectorDim := 1
  sliceSizes := ![1, 256]
  wf := gather_S100000x256_S640000x1_S640000x256_1_0_n_n_0_1_1256_wf
def scatter_S100000x256_S640000x1_S640000x256_1_0_0_1 : ScatterDims S100000x256 S640000x1 S640000x256 where
  updateWindowDims := [1]
  insertedWindowDims := [0]
  scatterDimsToOperandDims := [0]
  indexVectorDim := 1
  wf := scatter_S100000x256_S640000x1_S640000x256_1_0_0_1_wf
def dot_S100000x256_S256x50_S100000x50_1_0_0_1_n_n : DotDims S100000x256 S256x50 S100000x50 where
  lhsContracting := [1]
  rhsContracting := [0]
  lhsNonContracting := [0]
  rhsNonContracting := [1]
  lhsBatch := []
  rhsBatch := []
  wf := dot_S100000x256_S256x50_S100000x50_1_0_0_1_n_n_wf

class Facts : Prop extends Facts₀ where

variable [Facts]
-- ==== Proof.LibRowDot.lean ====
/-
  A plain two-dimensional contraction read at an index. For dimension numbers that contract the left
  operand's last axis with the right operand's first axis and have no batch axes — the numbers of an
  ordinary matrix product `[n, d] × [d, h] → [n, h]` — the sum over the contraction index, at the
  result index `j`, is the sum over `k : Fin d` of the left operand at `(j 0, k)` times the right
  operand at `(k, j 1)`: row `j 0` of the left matrix against column `j 1` of the right one
  (`rowDot`). Stated for ANY such dimension-number record, from equations naming its six lists, so it
  serves a kernel's matrix product on a block of rows and the host's product on a whole array alike.
-/
import Idealize.ShloMosaic.Lib.ValueIdx
import Idealize.ShloMosaic.PureOps.Ideal.Laws

noncomputable section

open scoped BigOperators

namespace Cert.LibRowDot

open Idealize.ShloMosaic Idealize.ShloMosaic.ValueIdx

/-- A matrix of extended reals with `n` rows and `d` columns, as a function of its rank-2 index. -/
abbrev Mat (n d : ℕ) : Type := (⟨2, ![n, d]⟩ : Shape).Idx → EReal

/-- Row `r` of `a` against column `q` of `w`: `∑ k, a (r, k) · w (k, q)`. -/
def rowDot {n d h : ℕ} (a : Mat n d) (w : Mat d h) (r : Fin n) (q : Fin h) : EReal :=
  ∑ k : Fin d, a (ix2 r k) * w (ix2 k q)

section Plain

variable {n d h : ℕ} (D : DotDims ⟨2, ![n, d]⟩ ⟨2, ![d, h]⟩ ⟨2, ![n, h]⟩)

/-- One contracting axis: the contraction shape has rank one. -/
theorem contr_rank (hlc : D.lhsContracting = [1]) : D.contr.rank = 1 := by
  rw [D.rank_contr, hlc]; rfl

/-- Its one axis has the left operand's column count. -/
theorem contr_size (hlc : D.lhsContracting = [1]) :
    D.contr.size ⟨0, by rw [contr_rank D hlc]; exact Nat.one_pos⟩ = d := by
  have h := D.size_contr 0 (by rw [hlc]; exact Nat.one_pos)
  rw [h]
  simp only [hlc, List.getElem_cons_zero]
  rfl

private theorem coord_congr {m : ℕ} {sz : Fin m → ℕ} (j : (a : Fin m) → Fin (sz a)) :
    ∀ (p q : ℕ) (hp : p < m) (hq : q < m), p = q → (j ⟨p, hp⟩).val = (j ⟨q, hq⟩).val :=
  fun p q hp hq e => by subst e; rfl

/-- The left operand's row coordinate is the result's row coordinate. -/
theorem lhs_row (hln : D.lhsNonContracting = [0]) (hlb : D.lhsBatch = [])
    (j : (⟨2, ![n, h]⟩ : Shape).Idx) (k : D.contr.Idx) : (D.lhsIdx j k 0).val = (j 0).val := by
  have hb : (0 : Fin (⟨2, ![n, d]⟩ : Shape).rank) ∉ D.lhsBatch := by rw [hlb]; exact List.not_mem_nil
  have hn : (0 : Fin (⟨2, ![n, d]⟩ : Shape).rank) ∈ D.lhsNonContracting := by rw [hln]; exact List.mem_singleton.mpr rfl
  unfold DotDims.lhsIdx
  rw [dif_neg hb, dif_pos hn]
  simp only [Fin.val_cast]
  exact coord_congr j _ _ _ _ (by simp [hlb, hln])

/-- The left operand's column coordinate is the contraction index's one coordinate. -/
theorem lhs_col (hlc : D.lhsContracting = [1]) (j : (⟨2, ![n, h]⟩ : Shape).Idx) (k : D.contr.Idx) :
    (D.lhsIdx j k 1).val = (k ⟨0, by rw [contr_rank D hlc]; exact Nat.one_pos⟩).val :=
  D.lhsIdx_val_of_single hlc j k

/-- The right operand's row coordinate is the contraction index's one coordinate. -/
theorem rhs_row (hlc : D.lhsContracting = [1]) (hrc : D.rhsContracting = [0]) (j : (⟨2, ![n, h]⟩ : Shape).Idx)
    (k : D.contr.Idx) : (D.rhsIdx j k 0).val = (k ⟨0, by rw [contr_rank D hlc]; exact Nat.one_pos⟩).val :=
  D.rhsIdx_val_of_single hrc j k

/-- The right operand's column coordinate is the result's column coordinate. -/
theorem rhs_col (hln : D.lhsNonContracting = [0]) (hrn : D.rhsNonContracting = [1]) (hlb : D.lhsBatch = [])
    (hrb : D.rhsBatch = []) (j : (⟨2, ![n, h]⟩ : Shape).Idx) (k : D.contr.Idx) :
    (D.rhsIdx j k 1).val = (j 1).val := by
  have hb : (1 : Fin (⟨2, ![d, h]⟩ : Shape).rank) ∉ D.rhsBatch := by rw [hrb]; exact List.not_mem_nil
  have hn : (1 : Fin (⟨2, ![d, h]⟩ : Shape).rank) ∈ D.rhsNonContracting := by rw [hrn]; exact List.mem_singleton.mpr rfl
  unfold DotDims.rhsIdx
  rw [dif_neg hb, dif_pos hn]
  simp only [Fin.val_cast]
  exact coord_congr j _ _ _ _ (by simp [hlb, hln, hrn])

/-- THE CONTRACTION AS A ROW AGAINST A COLUMN: the sum over the record's contraction index is `rowDot`. -/
theorem sum_contr_eq_rowDot (hlc : D.lhsContracting = [1]) (hrc : D.rhsContracting = [0])
    (hln : D.lhsNonContracting = [0]) (hrn : D.rhsNonContracting = [1]) (hlb : D.lhsBatch = [])
    (hrb : D.rhsBatch = []) (l : Mat n d) (r : Mat d h) (j : (⟨2, ![n, h]⟩ : Shape).Idx) :
    ∑ k : D.contr.Idx, l (D.lhsIdx j k) * r (D.rhsIdx j k) = rowDot l r (j 0) (j 1) := by
  unfold rowDot
  rw [← Equiv.sum_comp (contrEquiv1 D d (contr_rank D hlc) (contr_size D hlc)).symm]
  refine Finset.sum_congr rfl fun k _ => ?_
  have hk := contrEquiv1_symm_val D d (contr_rank D hlc) (contr_size D hlc) k
  have el : D.lhsIdx j ((contrEquiv1 D d (contr_rank D hlc) (contr_size D hlc)).symm k) = ix2 (j 0) k := by
    funext a; apply Fin.ext
    match a with
    | ⟨0, _⟩ => exact lhs_row D hln hlb _ _
    | ⟨1, _⟩ => exact (lhs_col D hlc _ _).trans hk
  have er : D.rhsIdx j ((contrEquiv1 D d (contr_rank D hlc) (contr_size D hlc)).symm k) = ix2 k (j 1) := by
    funext a; apply Fin.ext
    match a with
    | ⟨0, _⟩ => exact (rhs_row D hlc hrc _ _).trans hk
    | ⟨1, _⟩ => exact rhs_col D hln hrn hlb hrb _ _
  exact congrArg₂ (· * ·) (congrArg l el) (congrArg r er)

/-- A kernel's matrix product into a zero accumulator, at the ideal values, read at an index. -/
theorem matmul_zero_apply (hlc : D.lhsContracting = [1]) (hrc : D.rhsContracting = [0])
    (hln : D.lhsNonContracting = [0]) (hrn : D.rhsNonContracting = [1]) (hlb : D.lhsBatch = [])
    (hrb : D.rhsBatch = []) (prec : Option ContractPrecision) (l : FVec Ideal ⟨2, ![n, d]⟩ .f32)
    (r : FVec Ideal ⟨2, ![d, h]⟩ .f32) (j : (⟨2, ![n, h]⟩ : Shape).Idx) :
    FloatOps.matmul D prec l r (constant ⟨2, ![n, h]⟩ .f32 0x00000000#32) j = rowDot l r (j 0) (j 1) := by
  rw [Ideal.matmul_constant_zero_apply]
  exact sum_contr_eq_rowDot D hlc hrc hln hrn hlb hrb l r j

/-- The host's matrix product, at the ideal values, read at an index. -/
theorem dotGeneral_apply (hlc : D.lhsContracting = [1]) (hrc : D.rhsContracting = [0])
    (hln : D.lhsNonContracting = [0]) (hrn : D.rhsNonContracting = [1]) (hlb : D.lhsBatch = [])
    (hrb : D.rhsBatch = []) (prec : Option ContractPrecision) (sched : HostSchedule)
    (l : FVec Ideal ⟨2, ![n, d]⟩ .f32) (r : FVec Ideal ⟨2, ![d, h]⟩ .f32) (j : (⟨2, ![n, h]⟩ : Shape).Idx) :
    FloatOps.dotGeneral D prec sched l r j = rowDot l r (j 0) (j 1) := by
  rw [Ideal.dotGeneral_apply]
  exact sum_contr_eq_rowDot D hlc hrc hln hrn hlb hrb l r j

end Plain

end Cert.LibRowDot

end
-- ==== Proof.Spec.lean ====
/-
  The mathematics both programs compute, over abstract matrices of extended reals.

  One graph-convolution layer takes the aggregated features `a` and the node features `x` (both `n × d`),
  two weight matrices `wl`, `wr` (`d × h`, already transposed) and a bias, and returns the `n × h` matrix whose
  entry `(r, q)` is  (row r of a)·(column q of wl) + (row r of x)·(column q of wr) + bias q.
  The kernel adds the two products first and the bias last (`lin`, the bias a `1 × h` row); the reference
  adds the bias to the first product and the second product last (`linR`, the bias a vector of length `h`).
  Addition of extended reals is commutative and associative, so the two agree wherever the two biases do
  (`linR_eq_lin`); no finiteness is needed.  The first layer is followed by a maximum against a constant
  (`relu`), and the second layer reads the first layer's result both directly and through an aggregation,
  which here is an arbitrary function of the matrix (`twoLayer`, `twoLayerR`).
-/
import proofs.«104418_j32238024524264_1_alg».proof.Proof.LibRowDot

noncomputable section

open scoped BigOperators

namespace Cert.Spec

open Idealize.ShloMosaic Idealize.ShloMosaic.ValueIdx Cert.LibRowDot

/-- A vector of extended reals of length `h`, as a function of its rank-1 index. -/
abbrev Row (h : ℕ) : Type := (⟨1, ![h]⟩ : Shape).Idx → EReal

variable {n d h : ℕ}

/-- One layer in the kernel's grouping: the two products added, then the bias row. -/
def lin (a x : Mat n d) (wl wr : Mat d h) (b : Mat 1 h) : Mat n h :=
  fun i => (rowDot a wl (i 0) (i 1) + rowDot x wr (i 0) (i 1)) + b (ix2 0 (i 1))

/-- One layer in the reference's grouping: the first product and the bias added, then the second product. -/
def linR (a x : Mat n d) (wl wr : Mat d h) (b : Row h) : Mat n h :=
  fun i => (rowDot a wl (i 0) (i 1) + b (ix1 (i 1))) + rowDot x wr (i 0) (i 1)

/-- The two groupings agree when the bias row and the bias vector hold the same numbers. -/
theorem linR_eq_lin (a x : Mat n d) (wl wr : Mat d h) (bv : Row h) (br : Mat 1 h)
    (hb : ∀ q : Fin h, br (ix2 0 q) = bv (ix1 q)) : linR a x wl wr bv = lin a x wl wr br := by
  funext i
  exact (add_right_comm (rowDot a wl (i 0) (i 1)) (bv (ix1 (i 1))) (rowDot x wr (i 0) (i 1))).trans
    (congrArg (fun z => rowDot a wl (i 0) (i 1) + rowDot x wr (i 0) (i 1) + z) (hb (i 1)).symm)

/-- The maximum of every entry against one constant. -/
def relu (z : EReal) (y : Mat n h) : Mat n h := fun i => max (y i) z

variable {k : ℕ}

/-- Two layers, kernel grouping: the hidden matrix is the first layer under `relu`; the second layer reads it
    directly and through the second aggregation. -/
def twoLayer (g1 : Mat n d → Mat n d) (g2 : Mat n h → Mat n h) (z : EReal) (x : Mat n d)
    (wl1 wr1 : Mat d h) (b1 : Mat 1 h) (wl2 wr2 : Mat h k) (b2 : Mat 1 k) : Mat n k :=
  lin (g2 (relu z (lin (g1 x) x wl1 wr1 b1))) (relu z (lin (g1 x) x wl1 wr1 b1)) wl2 wr2 b2

/-- Two layers, reference grouping. -/
def twoLayerR (g1 : Mat n d → Mat n d) (g2 : Mat n h → Mat n h) (z : EReal) (x : Mat n d)
    (wl1 wr1 : Mat d h) (b1 : Row h) (wl2 wr2 : Mat h k) (b2 : Row k) : Mat n k :=
  linR (g2 (relu z (linR (g1 x) x wl1 wr1 b1))) (relu z (linR (g1 x) x wl1 wr1 b1)) wl2 wr2 b2

/-- The two programs' results agree when their biases do. -/
theorem twoLayerR_eq_twoLayer (g1 : Mat n d → Mat n d) (g2 : Mat n h → Mat n h) (z : EReal) (x : Mat n d)
    (wl1 wr1 : Mat d h) (bv1 : Row h) (br1 : Mat 1 h) (wl2 wr2 : Mat h k) (bv2 : Row k) (br2 : Mat 1 k)
    (hb1 : ∀ q : Fin h, br1 (ix2 0 q) = bv1 (ix1 q)) (hb2 : ∀ q : Fin k, br2 (ix2 0 q) = bv2 (ix1 q)) :
    twoLayerR g1 g2 z x wl1 wr1 bv1 wl2 wr2 bv2 = twoLayer g1 g2 z x wl1 wr1 br1 wl2 wr2 br2 := by
  unfold twoLayerR twoLayer
  rw [linR_eq_lin (g1 x) x wl1 wr1 bv1 br1 hb1]
  exact linR_eq_lin _ _ wl2 wr2 bv2 br2 hb2

end Cert.Spec

end
-- ==== Proof.Region0.lean ====
/-
  The first kernel region, read as a value.  The region walks the 100000 rows in 20 blocks of 5000; at
  block `t` its body loads rows `5000 t … 5000 t + 4999` of the aggregated features and of the node
  features, the two whole weight matrices and the whole bias row, and stores, for each of those rows `r` and
  each column `q`, the maximum against a constant of
      (row r of the aggregate)·(column q of the left weights) + (row r of the features)·(column q of the right
      weights) + bias q.
  A row of a block is a row of the array, and the weights and bias are read whole, so what block `t` writes
  back is the restriction to its rows of ONE function of the five arrays (`Cert.Spec.lin` under
  `Cert.Spec.relu`); the 20 blocks cover every row, so the output array ends holding that function.
  Everything is stated at an arbitrary valuation `V` of the buffers at the region's entry.
-/
import proofs.«104418_j32238024524264_1_alg».proof.Proof.Gen.KernelIdeal.Frame
import proofs.«104418_j32238024524264_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.Spec Cert.LibRowDot

/-- The constant the first layer is clamped against, as the body spells it. -/
abbrev zc : EReal := (Scalar.ofBits .f32 0x00000000#32 : Ideal .f32)

theorem hz : (![0, 0] : Fin 2 → Nat) = fun _ => 0 := funext fun a => by fin_cases a <;> rfl

/-- The body's stored value at row `p`, column `q` of the block: the two row-by-column sums, the bias of the
    column, the clamp. -/
theorem pay_apply (x0 x1 : Vec Ideal S5000x128 .f32) (x2 x4 : Vec Ideal S128x256 .f32) (x3 : Vec Ideal S1x256 .f32)
    (p : Fin 5000) (q : Fin 256) :
    k0_pay1 x0 x1 x2 x4 x3 (ix2 p q)
      = max ((rowDot (n := 5000) (d := 128) (h := 256) x0 x2 p q + rowDot (n := 5000) (d := 128) (h := 256) x1 x4 p q)
          + x3 (ix2 0 q)) zc := by
  unfold k0_pay1
  rw [maximumf_apply, addf_apply, addf_apply, broadcast_apply]
  simp only [shapeCast_self]
  refine congrArg₂ max (congrArg₂ (· + ·) (congrArg₂ (· + ·) ?_ ?_) ?_) rfl
  · exact matmul_zero_apply dot_S5000x128_S128x256_S5000x256_1_0_0_1_n_n rfl rfl rfl rfl rfl rfl none x0 x2 (ix2 p q)
  · exact matmul_zero_apply dot_S5000x128_S128x256_S5000x256_1_0_0_1_n_n rfl rfl rfl rfl rfl rfl none x1 x4 (ix2 p q)
  · exact broadcastTo_apply x3 _ (ix2 p q) (ix2 0 q) (fun a => by
      match a with
      | ⟨0, _⟩ => rfl
      | ⟨1, _⟩ => rfl)

/-- One point of the grid, over plain variables: if the two row blocks are rows `5000 tv + …` of their arrays
    and the weight and bias blocks are their arrays, the stored value at row `p`, column `q` of the block is
    the clamped layer of the arrays at row `5000 tv + p`, column `q`. -/
theorem point_eq (x0 x1 : Vec Ideal S5000x128 .f32) (x2 x4 : Vec Ideal S128x256 .f32) (x3 : Vec Ideal S1x256 .f32)
    (A0 A1 : Mat 100000 128) (A2 A4 : Mat 128 256) (A3 : Mat 1 256) (tv : ℕ)
    (h0 : ∀ (y : S5000x128.Idx) (i : S100000x128.Idx), (i 0).val = tv * 5000 + (y 0).val → (i 1).val = (y 1).val → x0 y = A0 i)
    (h1 : ∀ (y : S5000x128.Idx) (i : S100000x128.Idx), (i 0).val = tv * 5000 + (y 0).val → (i 1).val = (y 1).val → x1 y = A1 i)
    (h2 : ∀ y : S128x256.Idx, x2 y = A2 y) (h3 : ∀ y : S1x256.Idx, x3 y = A3 y) (h4 : ∀ y : S128x256.Idx, x4 y = A4 y)
    (p : Fin 5000) (q : Fin 256) (r : Fin 100000) (hr : r.val = tv * 5000 + p.val) :
    k0_pay1 x0 x1 x2 x4 x3 (ix2 p q) = relu zc (lin A0 A1 A2 A4 A3) (ix2 r q) := by
  rw [pay_apply]
  show max ((rowDot (n := 5000) (d := 128) (h := 256) x0 x2 p q + rowDot (n := 5000) (d := 128) (h := 256) x1 x4 p q) + x3 (ix2 0 q)) zc
    = max ((rowDot A0 A2 r q + rowDot A1 A4 r q) + A3 (ix2 0 q)) zc
  have hA : rowDot (n := 5000) (d := 128) (h := 256) x0 x2 p q = rowDot A0 A2 r q :=
    Finset.sum_congr rfl fun k _ => congrArg₂ (· * ·) (h0 (ix2 p k) (ix2 r k) hr rfl) (h2 (ix2 k q))
  have hB : rowDot (n := 5000) (d := 128) (h := 256) x1 x4 p q = rowDot A1 A4 r q :=
    Finset.sum_congr rfl fun k _ => congrArg₂ (· * ·) (h1 (ix2 p k) (ix2 r k) hr rfl) (h4 (ix2 k q))
  rw [hA, hB, h3]

variable (V : (c : Dev nD) → (b : Ref sig .tc) → Buf (Elt Ideal) ((c : Thread nD τ).loc b))

/-- The index maps over the grid: the row-blocked windows move with the point, the others stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The input blocks as parts of their arrays -/

/-- Row `y 0`, column `y 1` of the aggregate's block at point `t` is row `5000 t + y 0` of the array. -/
theorem blk_agg (c : Dev nD) (t : Fin cfg0.N) (y : S5000x128.Idx) (i : S100000x128.Idx)
    (h0 : (i 0).val = t.val * 5000 + (y 0).val) (h1 : (i 1).val = (y 1).val) :
    (iblk0 V c 0 t : Vec Ideal S5000x128 .f32) y = (V c main_v17 : S100000x128.Idx → Elt Ideal .f32) i := by
  obtain ⟨e0, e1, -⟩ := idx_facts t
  unfold iblk0
  rw [View.read_apply]
  show V c main_v17 _ = V c main_v17 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The same for the node features' block. -/
theorem blk_feat (c : Dev nD) (t : Fin cfg0.N) (y : S5000x128.Idx) (i : S100000x128.Idx)
    (h0 : (i 0).val = t.val * 5000 + (y 0).val) (h1 : (i 1).val = (y 1).val) :
    (iblk0 V c 1 t : Vec Ideal S5000x128 .f32) y = (V c main_arg0 : S100000x128.Idx → Elt Ideal .f32) i := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t (0 : Fin 2) * 5000 + 1 * (y 0).val = (i 0).val; rw [e0, h0]; omega
  | ⟨1, _⟩ => show win0_1.index t (1 : Fin 2) * 128 + 1 * (y 1).val = (i 1).val; rw [e1, h1]; omega

/-- The left weights' one block is the whole matrix. -/
theorem blk_wl (c : Dev nD) (t : Fin cfg0.N) (y : S128x256.Idx) :
    (iblk0 V c 2 t : Vec Ideal S128x256 .f32) y = (V c main_v4 : S128x256.Idx → Elt Ideal .f32) y := by
  obtain ⟨-, -, -, -, e0, e1, -⟩ := idx_facts t
  unfold iblk0
  rw [View.read_apply]
  show V c main_v4 _ = V c main_v4 _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 256 + 1 * (y 1).val = (y 1).val; rw [e1]; omega

/-- The bias row's one block is the whole row. -/
theorem blk_bias (c : Dev nD) (t : Fin cfg0.N) (y : S1x256.Idx) :
    (iblk0 V c 3 t : Vec Ideal S1x256 .f32) y = (V c main_v18 : S1x256.Idx → Elt Ideal .f32) y := by
  obtain ⟨-, -, -, -, -, -, e0, e1, -⟩ := idx_facts t
  unfold iblk0
  rw [View.read_apply]
  show V c main_v18 _ = V c main_v18 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 256 + 1 * (y 1).val = (y 1).val; rw [e1]; omega

/-- The right weights' one block is the whole matrix. -/
theorem blk_wr (c : Dev nD) (t : Fin cfg0.N) (y : S128x256.Idx) :
    (iblk0 V c 4 t : Vec Ideal S128x256 .f32) y = (V c main_v5 : S128x256.Idx → Elt Ideal .f32) y := by
  obtain ⟨-, -, -, -, -, -, -, -, e0, e1, -⟩ := idx_facts t
  unfold iblk0
  rw [View.read_apply]
  show V c main_v5 _ = V c main_v5 _
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 256 + 1 * (y 1).val = (y 1).val; rw [e1]; omega

/-! ## The output array -/

/-- The hidden matrix as ONE function of the region's five arrays. -/
abbrev hidden (c : Dev nD) : S100000x256.Idx → Elt Ideal .f32 :=
  relu zc (lin (n := 100000) (d := 128) (h := 256) (V c main_v17) (V c main_arg0) (V c main_v4) (V c main_v5) (V c main_v18))

/-- Where the output's block at point `t` sits in its array: rows `5000 t …`, every column. -/
theorem out_emb (t : Fin cfg0.N) (j : S5000x256.Idx) :
    ((((cfg0.win 5).blk t).view.emb j) 0).val = t.val * 5000 + (j 0).val
    ∧ ((((cfg0.win 5).blk t).view.emb j) 1).val = (j 1).val := by
  obtain ⟨-, -, -, -, -, -, -, -, -, -, e0, e1⟩ := idx_facts t
  constructor
  · show win0_5.index t (0 : Fin 2) * 5000 + 1 * (j 0).val = _; rw [e0]; omega
  · show win0_5.index t (1 : Fin 2) * 256 + 1 * (j 1).val = _; rw [e1]; omega

/-- WHAT POINT `t` WRITES BACK is block `t` of the hidden matrix. -/
theorem flushed_eq (c : Dev nD) (t : Fin cfg0.N) :
    (dat0 V c).flushed 5 t = ((cfg0.win 5).blk t).view.read (Elt Ideal) (hidden V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x256) hz, View.ld_unit_zero (S := S1x256) hz]
  funext j
  obtain ⟨o0, o1⟩ := out_emb t j
  have hN : cfg0.N = 20 := N_0
  have hr : t.val * 5000 + (j 0).val < 100000 := by
    have h1 : (j 0).val < 5000 := idx2_lt0 j
    have h2 : t.val < 20 := Nat.lt_of_lt_of_eq t.isLt hN
    omega
  have he : ((cfg0.win 5).blk t).view.emb j = ix2 (⟨t.val * 5000 + (j 0).val, hr⟩ : Fin 100000) (j 1) := by
    funext a
    apply Fin.ext
    match a with
    | ⟨0, _⟩ => exact o0
    | ⟨1, _⟩ => exact o1
  show k0_pay1 (iblk0 V c 0 t) (iblk0 V c 1 t) (iblk0 V c 2 t) (iblk0 V c 4 t) (iblk0 V c 3 t) j
    = hidden V c (((cfg0.win 5).blk t).view.emb j)
  refine (congrArg (k0_pay1 (iblk0 V c 0 t) (iblk0 V c 1 t) (iblk0 V c 2 t) (iblk0 V c 4 t) (iblk0 V c 3 t)) (eq_ix2 j)).trans ?_
  refine Eq.trans ?_ (congrArg (hidden V c) he.symm)
  exact point_eq (iblk0 V c 0 t) (iblk0 V c 1 t) (iblk0 V c 2 t) (iblk0 V c 4 t) (iblk0 V c 3 t)
    (V c main_v17) (V c main_arg0) (V c main_v4) (V c main_v5) (V c main_v18) t.val
    (blk_agg V c t) (blk_feat V c t) (blk_wl V c t) (blk_bias V c t) (blk_wr V c t)
    (j 0) (j 1) ⟨t.val * 5000 + (j 0).val, hr⟩ rfl

/-- Every row of the array lies in the block of the point its row number divided by 5000 names. -/
theorem covered (i : S100000x256.Idx) :
    ∃ t : Fin cfg0.N, (cfg0.win 5).flush t = true ∧ i ∈ ((cfg0.win 5).blk t).view.set := by
  have hi0 : (i 0).val < 100000 := idx2_lt0 i
  have hi1 : (i 1).val < 256 := idx2_lt1 i
  have hN : cfg0.N = 20 := N_0
  let t : Fin cfg0.N := ⟨(i 0).val / 5000, by rw [hN]; omega⟩
  obtain ⟨-, -, -, -, -, -, -, -, -, -, e0, e1⟩ := idx_facts t
  have ht : t.val = (i 0).val / 5000 := rfl
  refine ⟨t, flush0_5 t, ?_⟩
  show i ∈ ((View.whole main_v19).slice (win0_5.rect t)).set
  rw [View.set_slice_whole, Rect.mem_set_unit]
  intro a
  match a with
  | ⟨0, _⟩ => show win0_5.index t (0 : Fin 2) * 5000 ≤ (i 0).val ∧ (i 0).val < win0_5.index t (0 : Fin 2) * 5000 + 5000; rw [e0, ht]; omega
  | ⟨1, _⟩ => show win0_5.index t (1 : Fin 2) * 256 ≤ (i 1).val ∧ (i 1).val < win0_5.index t (1 : Fin 2) * 256 + 256; rw [e1]; omega

/-- THE OUTPUT ARRAY after the region is the hidden matrix. -/
theorem final (c : Dev nD) : (dat0 V c).arrAt 5 cfg0.N = hidden V c :=
  (dat0 V c).arrAt_eq_of_cover 5 (hidden V c) (fun t _ => flushed_eq V c t) covered

end Cert.KernelIdeal.Region0

end
-- ==== Proof.Region1.lean ====
/-
  The second kernel region, read as a value.  It walks the 100000 rows in 20 blocks of 5000 like the first;
  at block `t` its body loads rows `5000 t … 5000 t + 4999` of the aggregated hidden matrix and of the hidden
  matrix (256 columns each), the two whole 256 × 50 weight matrices and the whole bias row, and stores, for
  each of those rows `r` and each of the 50 columns `q`,
      (row r of the aggregate)·(column q of the left weights) + (row r of the hidden matrix)·(column q of the
      right weights) + bias q,
  with no clamp.  As in the first region a row of a block is a row of the array and the weights and bias are
  read whole, so block `t` written back is the restriction to its rows of `Cert.Spec.lin` of the five arrays,
  and the 20 blocks cover every row: the output array ends holding that function.  Stated at an arbitrary
  valuation `V` of the buffers at the region's entry.
-/
import proofs.«104418_j32238024524264_1_alg».proof.Proof.Gen.KernelIdeal.Frame
import proofs.«104418_j32238024524264_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.Spec Cert.LibRowDot

theorem hz : (![0, 0] : Fin 2 → Nat) = fun _ => 0 := funext fun a => by fin_cases a <;> rfl

/-- The body's stored value at row `p`, column `q` of the block: the two row-by-column sums and the bias of
    the column. -/
theorem pay_apply (x0 x1 : Vec Ideal S5000x256 .f32) (x2 x4 : Vec Ideal S256x50 .f32) (x3 : Vec Ideal S1x50 .f32)
    (p : Fin 5000) (q : Fin 50) :
    k1_pay1 x0 x1 x2 x4 x3 (ix2 p q)
      = (rowDot (n := 5000) (d := 256) (h := 50) x0 x2 p q + rowDot (n := 5000) (d := 256) (h := 50) x1 x4 p q)
          + x3 (ix2 0 q) := by
  unfold k1_pay1
  rw [addf_apply, addf_apply]
  simp only [shapeCast_self]
  refine congrArg₂ (· + ·) (congrArg₂ (· + ·) ?_ ?_) ?_
  · exact matmul_zero_apply dot_S5000x256_S256x50_S5000x50_1_0_0_1_n_n rfl rfl rfl rfl rfl rfl none x0 x2 (ix2 p q)
  · exact matmul_zero_apply dot_S5000x256_S256x50_S5000x50_1_0_0_1_n_n rfl rfl rfl rfl rfl rfl none x1 x4 (ix2 p q)
  · exact broadcastTo_apply x3 _ (ix2 p q) (ix2 0 q) (fun a => by
      match a with
      | ⟨0, _⟩ => rfl
      | ⟨1, _⟩ => rfl)

/-- One point of the grid, over plain variables: if the two row blocks are rows `5000 tv + …` of their arrays
    and the weight and bias blocks are their arrays, the stored value at row `p`, column `q` of the block is
    the layer of the arrays at row `5000 tv + p`, column `q`. -/
theorem point_eq (x0 x1 : Vec Ideal S5000x256 .f32) (x2 x4 : Vec Ideal S256x50 .f32) (x3 : Vec Ideal S1x50 .f32)
    (A0 A1 : Mat 100000 256) (A2 A4 : Mat 256 50) (A3 : Mat 1 50) (tv : ℕ)
    (h0 : ∀ (y : S5000x256.Idx) (i : S100000x256.Idx), (i 0).val = tv * 5000 + (y 0).val → (i 1).val = (y 1).val → x0 y = A0 i)
    (h1 : ∀ (y : S5000x256.Idx) (i : S100000x256.Idx), (i 0).val = tv * 5000 + (y 0).val → (i 1).val = (y 1).val → x1 y = A1 i)
    (h2 : ∀ y : S256x50.Idx, x2 y = A2 y) (h3 : ∀ y : S1x50.Idx, x3 y = A3 y) (h4 : ∀ y : S256x50.Idx, x4 y = A4 y)
    (p : Fin 5000) (q : Fin 50) (r : Fin 100000) (hr : r.val = tv * 5000 + p.val) :
    k1_pay1 x0 x1 x2 x4 x3 (ix2 p q) = lin A0 A1 A2 A4 A3 (ix2 r q) := by
  rw [pay_apply]
  show (rowDot (n := 5000) (d := 256) (h := 50) x0 x2 p q + rowDot (n := 5000) (d := 256) (h := 50) x1 x4 p q) + x3 (ix2 0 q)
    = (rowDot A0 A2 r q + rowDot A1 A4 r q) + A3 (ix2 0 q)
  have hA : rowDot (n := 5000) (d := 256) (h := 50) x0 x2 p q = rowDot A0 A2 r q :=
    Finset.sum_congr rfl fun k _ => congrArg₂ (· * ·) (h0 (ix2 p k) (ix2 r k) hr rfl) (h2 (ix2 k q))
  have hB : rowDot (n := 5000) (d := 256) (h := 50) x1 x4 p q = rowDot A1 A4 r q :=
    Finset.sum_congr rfl fun k _ => congrArg₂ (· * ·) (h1 (ix2 p k) (ix2 r k) hr rfl) (h4 (ix2 k q))
  rw [hA, hB, h3]

variable (V : (c : Dev nD) → (b : Ref sig .tc) → Buf (Elt Ideal) ((c : Thread nD τ).loc b))

/-- The index maps over the grid: the row-blocked windows move with the point, the others stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## The input blocks as parts of their arrays -/

/-- Row `y 0`, column `y 1` of the aggregated hidden matrix's block at point `t` is row `5000 t + y 0` of the array. -/
theorem blk_agg (c : Dev nD) (t : Fin cfg1.N) (y : S5000x256.Idx) (i : S100000x256.Idx)
    (h0 : (i 0).val = t.val * 5000 + (y 0).val) (h1 : (i 1).val = (y 1).val) :
    (iblk1 V c 0 t : Vec Ideal S5000x256 .f32) y = (V c main_v29 : S100000x256.Idx → Elt Ideal .f32) i := by
  obtain ⟨e0, e1, -⟩ := idx_facts t
  unfold iblk1
  rw [View.read_apply]
  show V c main_v29 _ = V c main_v29 _
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 256 + 1 * (y 1).val = (i 1).val; rw [e1, h1]; omega

/-- The same for the hidden matrix's block. -/
theorem blk_feat (c : Dev nD) (t : Fin cfg1.N) (y : S5000x256.Idx) (i : S100000x256.Idx)
    (h0 : (i 0).val = t.val * 5000 + (y 0).val) (h1 : (i 1).val = (y 1).val) :
    (iblk1 V c 1 t : Vec Ideal S5000x256 .f32) y = (V c main_v19 : S100000x256.Idx → Elt Ideal .f32) i := by
  obtain ⟨-, -, e0, e1, -⟩ := idx_facts t
  unfold iblk1
  rw [View.read_apply]
  show V c main_v19 _ = V c main_v19 _
  congr 1
  funext a
  apply Fin.ext
  match a with
  | ⟨0, _⟩ => show win1_1.index t (0 : Fin 2) * 5000 + 1 * (y 0).val = (i 0).val; rw [e0, h0]; omega
  | ⟨1, _⟩ => show win1_1.index t (1 : Fin 2) * 256 + 1 * (y 1).val = (i 1).val; rw [e1, h1]; omega

/-- The left weights' one block is the whole matrix. -/
theorem blk_wl (c : Dev nD) (t : Fin cfg1.N) (y : S256x50.Idx) :
    (iblk1 V c 2 t : Vec Ideal S256x50 .f32) y = (V c main_v6 : S256x50.Idx → Elt Ideal .f32) y := by
  obtain ⟨-, -, -, -, e0, e1, -⟩ := idx_facts t
  unfold iblk1
  rw [View.read_apply]
  show V c main_v6 _ = V c main_v6 _
  congr 1
  funext a
  apply Fin.ext
  match a with
  | ⟨0, _⟩ => show win1_2.index t (0 : Fin 2) * 256 + 1 * (y 0).val = (y 0).val; rw [e0]; omega
  | ⟨1, _⟩ => show win1_2.index t (1 : Fin 2) * 50 + 1 * (y 1).val = (y 1).val; rw [e1]; omega

/-- The bias row's one block is the whole row. -/
theorem blk_bias (c : Dev nD) (t : Fin cfg1.N) (y : S1x50.Idx) :
    (iblk1 V c 3 t : Vec Ideal S1x50 .f32) y = (V c main_v30 : S1x50.Idx → Elt Ideal .f32) y := by
  obtain ⟨-, -, -, -, -, -, e0, e1, -⟩ := idx_facts t
  unfold iblk1
  rw [View.read_apply]
  show V c main_v30 _ = V c main_v30 _
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 50 + 1 * (y 1).val = (y 1).val; rw [e1]; omega

/-- The right weights' one block is the whole matrix. -/
theorem blk_wr (c : Dev nD) (t : Fin cfg1.N) (y : S256x50.Idx) :
    (iblk1 V c 4 t : Vec Ideal S256x50 .f32) y = (V c main_v7 : S256x50.Idx → Elt Ideal .f32) y := by
  obtain ⟨-, -, -, -, -, -, -, -, e0, e1, -⟩ := idx_facts t
  unfold iblk1
  rw [View.read_apply]
  show V c main_v7 _ = V c main_v7 _
  congr 1
  funext a
  apply Fin.ext
  match a with
  | ⟨0, _⟩ => show win1_4.index t (0 : Fin 2) * 256 + 1 * (y 0).val = (y 0).val; rw [e0]; omega
  | ⟨1, _⟩ => show win1_4.index t (1 : Fin 2) * 50 + 1 * (y 1).val = (y 1).val; rw [e1]; omega

/-! ## The output array -/

/-- The result matrix as ONE function of the region's five arrays. -/
abbrev result (c : Dev nD) : S100000x50.Idx → Elt Ideal .f32 :=
  lin (n := 100000) (d := 256) (h := 50) (V c main_v29) (V c main_v19) (V c main_v6) (V c main_v7) (V c main_v30)

/-- Where the output's block at point `t` sits in its array: rows `5000 t …`, every column. -/
theorem out_emb (t : Fin cfg1.N) (j : S5000x50.Idx) :
    ((((cfg1.win 5).blk t).view.emb j) 0).val = t.val * 5000 + (j 0).val
    ∧ ((((cfg1.win 5).blk t).view.emb j) 1).val = (j 1).val := by
  obtain ⟨-, -, -, -, -, -, -, -, -, -, e0, e1⟩ := idx_facts t
  constructor
  · show win1_5.index t (0 : Fin 2) * 5000 + 1 * (j 0).val = _; rw [e0]; omega
  · show win1_5.index t (1 : Fin 2) * 50 + 1 * (j 1).val = _; rw [e1]; omega

/-- WHAT POINT `t` WRITES BACK is block `t` of the result matrix. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S5000x256) hz, View.ld_unit_zero (S := S256x50) hz, View.ld_unit_zero (S := S1x50) hz]
  funext j
  obtain ⟨o0, o1⟩ := out_emb t j
  have hN : cfg1.N = 20 := N_1
  have hr : t.val * 5000 + (j 0).val < 100000 := by
    have h1 : (j 0).val < 5000 := idx2_lt0 j
    have h2 : t.val < 20 := Nat.lt_of_lt_of_eq t.isLt hN
    omega
  have he : ((cfg1.win 5).blk t).view.emb j = ix2 (⟨t.val * 5000 + (j 0).val, hr⟩ : Fin 100000) (j 1) := by
    funext a
    apply Fin.ext
    match a with
    | ⟨0, _⟩ => exact o0
    | ⟨1, _⟩ => exact o1
  show k1_pay1 (iblk1 V c 0 t) (iblk1 V c 1 t) (iblk1 V c 2 t) (iblk1 V c 4 t) (iblk1 V c 3 t) j
    = result V c (((cfg1.win 5).blk t).view.emb j)
  refine (congrArg (k1_pay1 (iblk1 V c 0 t) (iblk1 V c 1 t) (iblk1 V c 2 t) (iblk1 V c 4 t) (iblk1 V c 3 t)) (eq_ix2 j)).trans ?_
  refine Eq.trans ?_ (congrArg (result V c) he.symm)
  exact point_eq (iblk1 V c 0 t) (iblk1 V c 1 t) (iblk1 V c 2 t) (iblk1 V c 4 t) (iblk1 V c 3 t)
    (V c main_v29) (V c main_v19) (V c main_v6) (V c main_v7) (V c main_v30) t.val
    (blk_agg V c t) (blk_feat V c t) (blk_wl V c t) (blk_bias V c t) (blk_wr V c t)
    (j 0) (j 1) ⟨t.val * 5000 + (j 0).val, hr⟩ rfl

/-- Every row of the array lies in the block of the point its row number divided by 5000 names. -/
theorem covered (i : S100000x50.Idx) :
    ∃ t : Fin cfg1.N, (cfg1.win 5).flush t = true ∧ i ∈ ((cfg1.win 5).blk t).view.set := by
  have hi0 : (i 0).val < 100000 := idx2_lt0 i
  have hi1 : (i 1).val < 50 := idx2_lt1 i
  have hN : cfg1.N = 20 := N_1
  let t : Fin cfg1.N := ⟨(i 0).val / 5000, by rw [hN]; omega⟩
  obtain ⟨-, -, -, -, -, -, -, -, -, -, e0, e1⟩ := idx_facts t
  have ht : t.val = (i 0).val / 5000 := rfl
  refine ⟨t, flush1_5 t, ?_⟩
  show i ∈ ((View.whole main_v31).slice (win1_5.rect t)).set
  rw [View.set_slice_whole, Rect.mem_set_unit]
  intro a
  match a with
  | ⟨0, _⟩ => show win1_5.index t (0 : Fin 2) * 5000 ≤ (i 0).val ∧ (i 0).val < win1_5.index t (0 : Fin 2) * 5000 + 5000; rw [e0, ht]; omega
  | ⟨1, _⟩ => show win1_5.index t (1 : Fin 2) * 50 ≤ (i 1).val ∧ (i 1).val < win1_5.index t (1 : Fin 2) * 50 + 50; rw [e1]; omega

/-- THE OUTPUT ARRAY after the region is the result matrix. -/
theorem final (c : Dev nD) : (dat1 V c).arrAt 5 cfg1.N = result V c :=
  (dat1 V c).arrAt_eq_of_cover 5 (result V c) (fun t _ => flushed_eq V c t) covered

end Cert.KernelIdeal.Region1

end
-- ==== Proof.KernelValue.lean ====
/-
  The idealized kernel program, read as a value.  Its run ends with the result array at the contents the last
  segment boundary gives it; those contents are walked back to the arguments:
    the result array is the second region's output array, which is `Cert.Spec.lin` of that region's five
    arrays at its entry (`Region1.final`);
    of those, the aggregated hidden matrix is the host's gather and scatter-add of the hidden matrix
    (`agg2`), the weights are transposes of two arguments and the bias row is a reshaped argument, all
    computed by host operations that no region overwrites, and the hidden matrix is the first region's output
    array, the clamped `lin` of ITS five arrays (`Region0.final`), which are read back the same way (`agg1`).
  So the result is two layers in the kernel's grouping (`Cert.Spec.twoLayer`) of the eight arguments.
-/
import proofs.«104418_j32238024524264_1_alg».proof.Proof.Region0
import proofs.«104418_j32238024524264_1_alg».proof.Proof.Region1
import proofs.«104418_j32238024524264_1_alg».proof.Proof.RunResult
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx Idealize.ShloMosaic.StableHlo
open Cert.Spec Cert.LibRowDot

/-- The edge array: row 0 the source nodes, row 1 the destination nodes. -/
abbrev Edges : Type := (⟨S2x640000, .i32⟩ : BufTy).Contents (Elt Ideal)

/-- Row 0 of the edge array as a vector: the source nodes. -/
def srcVec (ei : Edges) : (⟨S640000, .i32⟩ : BufTy).Contents (Elt Ideal) :=
  shapeCast _ (extractStridedSlice S1x640000 ![0, 0] ei slices_S2x640000_S1x640000_0_0) shapeCasts_S1x640000_S640000

/-- Row 1 as a vector: the destination nodes. -/
def dstVec (ei : Edges) : (⟨S640000, .i32⟩ : BufTy).Contents (Elt Ideal) :=
  shapeCast _ (extractStridedSlice S1x640000 ![1, 0] ei slices_S2x640000_S1x640000_1_0) shapeCasts_S1x640000_S640000

/-- The source nodes as a column, a negative one moved up by the node count. -/
def srcCol (ei : Edges) : (⟨S640000x1, .i32⟩ : BufTy).Contents (Elt Ideal) :=
  broadcastInDim S640000x1 ![0] bcast_S640000_S640000x1_0 (select (cmpi .slt (srcVec ei) (broadcastInDim S640000 ![] bcast_S_S640000 (constantI S_ 32 0#32))) (addi (srcVec ei) (broadcastInDim S640000 ![] bcast_S_S640000 (constantI S_ 32 100000#32))) (srcVec ei))

/-- The destination nodes as a column. -/
def dstCol (ei : Edges) : (⟨S640000x1, .i32⟩ : BufTy).Contents (Elt Ideal) :=
  broadcastInDim S640000x1 ![0] bcast_S640000_S640000x1_0 (dstVec ei)

/-- Aggregation along the edges of a matrix of 128 columns: the source rows gathered and added into the
    destination rows of a zero array. -/
def agg1 (ei : Edges) (x : FVec Ideal S100000x128 .f32) : FVec Ideal S100000x128 .f32 :=
  Host.scatterAdd scatter_S100000x128_S640000x1_S640000x128_1_0_0_1 (broadcastInDim S100000x128 ![] bcast_S_S100000x128 (constant S_ .f32 0x00000000#32)) (dstCol ei) (Host.gather gather_S100000x128_S640000x1_S640000x128_1_0_n_n_0_1_1128 x (srcCol ei))

/-- The same for 256 columns. -/
def agg2 (ei : Edges) (y : FVec Ideal S100000x256 .f32) : FVec Ideal S100000x256 .f32 :=
  Host.scatterAdd scatter_S100000x256_S640000x1_S640000x256_1_0_0_1 (broadcastInDim S100000x256 ![] bcast_S_S100000x256 (constant S_ .f32 0x00000000#32)) (dstCol ei) (Host.gather gather_S100000x256_S640000x1_S640000x256_1_0_n_n_0_1_1256 y (srcCol ei))

variable (m : (ℓ : Loc nD τ sig) → Buf (Elt Ideal) ℓ) (ρ : Dev nD → PrngReg) (c : Dev nD)

/-! The eight arguments at their literal types. -/
abbrev aX : FVec Ideal S100000x128 .f32 := m ((c.tc : Thread nD τ).loc main_arg0)
abbrev aE : Edges := m ((c.tc : Thread nD τ).loc main_arg1)
abbrev aW1l : FVec Ideal S256x128 .f32 := m ((c.tc : Thread nD τ).loc main_arg2)
abbrev aB1 : FVec Ideal S256 .f32 := m ((c.tc : Thread nD τ).loc main_arg3)
abbrev aW1r : FVec Ideal S256x128 .f32 := m ((c.tc : Thread nD τ).loc main_arg4)
abbrev aW2l : FVec Ideal S50x256 .f32 := m ((c.tc : Thread nD τ).loc main_arg5)
abbrev aB2 : FVec Ideal S50 .f32 := m ((c.tc : Thread nD τ).loc main_arg6)
abbrev aW2r : FVec Ideal S50x256 .f32 := m ((c.tc : Thread nD τ).loc main_arg7)

/-- The weight matrices transposed, as the program transposes them. -/
abbrev tW1l : FVec Ideal S128x256 .f32 := transpose S128x256 [1, 0] (aW1l m c) transposes_S256x128_S128x256_1_0
abbrev tW1r : FVec Ideal S128x256 .f32 := transpose S128x256 [1, 0] (aW1r m c) transposes_S256x128_S128x256_1_0
abbrev tW2l : FVec Ideal S256x50 .f32 := transpose S256x50 [1, 0] (aW2l m c) transposes_S50x256_S256x50_1_0
abbrev tW2r : FVec Ideal S256x50 .f32 := transpose S256x50 [1, 0] (aW2r m c) transposes_S50x256_S256x50_1_0

/-- The bias vectors as rows. -/
abbrev bRow1 : FVec Ideal S1x256 .f32 := shapeCast S1x256 (aB1 m c) shapeCasts_S256_S1x256
abbrev bRow2 : FVec Ideal S1x50 .f32 := shapeCast S1x50 (aB2 m c) shapeCasts_S50_S1x50

/-! ## The first host stretch, read at the buffers the regions and the second stretch use -/

theorem w1_arg0 : W1 m ρ c (Proc.devRef .tc main_arg0) = aX m c := by
  show StableHlo.after hostOps0 (W0 m ρ c) (Proc.devRef .tc main_arg0) = _
  after_results

theorem w1_arg6 : W1 m ρ c (Proc.devRef .tc main_arg6) = aB2 m c := by
  show StableHlo.after hostOps0 (W0 m ρ c) (Proc.devRef .tc main_arg6) = _
  after_results

theorem w1_v1 : W1 m ρ c (Proc.devRef .tc main_v1) = srcVec (aE m c) := by
  show StableHlo.after hostOps0 (W0 m ρ c) (Proc.devRef .tc main_v1) = _
  after_results
  rfl

theorem w1_v3 : W1 m ρ c (Proc.devRef .tc main_v3) = dstVec (aE m c) := by
  show StableHlo.after hostOps0 (W0 m ρ c) (Proc.devRef .tc main_v3) = _
  after_results
  rfl

theorem w1_v4 : W1 m ρ c (Proc.devRef .tc main_v4) = tW1l m c := by
  show StableHlo.after hostOps0 (W0 m ρ c) (Proc.devRef .tc main_v4) = _
  after_results

theorem w1_v5 : W1 m ρ c (Proc.devRef .tc main_v5) = tW1r m c := by
  show StableHlo.after hostOps0 (W0 m ρ c) (Proc.devRef .tc main_v5) = _
  after_results

theorem w1_v6 : W1 m ρ c (Proc.devRef .tc main_v6) = tW2l m c := by
  show StableHlo.after hostOps0 (W0 m ρ c) (Proc.devRef .tc main_v6) = _
  after_results

theorem w1_v7 : W1 m ρ c (Proc.devRef .tc main_v7) = tW2r m c := by
  show StableHlo.after hostOps0 (W0 m ρ c) (Proc.devRef .tc main_v7) = _
  after_results

set_option maxHeartbeats 1000000 in
theorem w1_v17 : W1 m ρ c (Proc.devRef .tc main_v17) = agg1 (aE m c) (aX m c) := by
  show StableHlo.after hostOps0 (W0 m ρ c) (Proc.devRef .tc main_v17) = _
  after_results_simp
  rfl

theorem w1_v18 : W1 m ρ c (Proc.devRef .tc main_v18) = bRow1 m c := by
  show StableHlo.after hostOps0 (W0 m ρ c) (Proc.devRef .tc main_v18) = _
  after_results
  rfl

/-! ## The first region's output array: the hidden matrix -/

/-- The hidden matrix of the arguments. -/
abbrev hiddenK : FVec Ideal S100000x256 .f32 :=
  relu Region0.zc (lin (n := 100000) (d := 128) (h := 256) (agg1 (aE m c) (aX m c)) (aX m c) (tW1l m c) (tW1r m c) (bRow1 m c))

theorem w2_v19 : W2 m ρ c (Proc.devRef .tc main_v19) = hiddenK m c := by
  refine (W2_arr m ρ c 5).trans ((Region0.final (V1 m ρ) c).trans ?_)
  show relu Region0.zc (lin (n := 100000) (d := 128) (h := 256) (W1 m ρ c (Proc.devRef .tc main_v17)) (W1 m ρ c (Proc.devRef .tc main_arg0))
    (W1 m ρ c (Proc.devRef .tc main_v4)) (W1 m ρ c (Proc.devRef .tc main_v5)) (W1 m ρ c (Proc.devRef .tc main_v18))) = _
  rw [w1_v17, w1_arg0, w1_v4, w1_v5, w1_v18]

/-! ## What the first region leaves alone -/

theorem w2_v1 : W2 m ρ c (Proc.devRef .tc main_v1) = srcVec (aE m c) :=
  (W2_of_ne m ρ c main_v1 (by decide)).trans (w1_v1 m ρ c)
theorem w2_v3 : W2 m ρ c (Proc.devRef .tc main_v3) = dstVec (aE m c) :=
  (W2_of_ne m ρ c main_v3 (by decide)).trans (w1_v3 m ρ c)
theorem w2_v6 : W2 m ρ c (Proc.devRef .tc main_v6) = tW2l m c :=
  (W2_of_ne m ρ c main_v6 (by decide)).trans (w1_v6 m ρ c)
theorem w2_v7 : W2 m ρ c (Proc.devRef .tc main_v7) = tW2r m c :=
  (W2_of_ne m ρ c main_v7 (by decide)).trans (w1_v7 m ρ c)
theorem w2_arg6 : W2 m ρ c (Proc.devRef .tc main_arg6) = aB2 m c :=
  (W2_of_ne m ρ c main_arg6 (by decide)).trans (w1_arg6 m ρ c)

/-! ## The second host stretch -/

theorem w3_v19 : W3 m ρ c (Proc.devRef .tc main_v19) = hiddenK m c := by
  show StableHlo.after hostOps1 (W2 m ρ c) (Proc.devRef .tc main_v19) = _
  after_results
  exact w2_v19 m ρ c

theorem w3_v6 : W3 m ρ c (Proc.devRef .tc main_v6) = tW2l m c := by
  show StableHlo.after hostOps1 (W2 m ρ c) (Proc.devRef .tc main_v6) = _
  after_results
  exact w2_v6 m ρ c

theorem w3_v7 : W3 m ρ c (Proc.devRef .tc main_v7) = tW2r m c := by
  show StableHlo.after hostOps1 (W2 m ρ c) (Proc.devRef .tc main_v7) = _
  after_results
  exact w2_v7 m ρ c

theorem w3_v30 : W3 m ρ c (Proc.devRef .tc main_v30) = bRow2 m c := by
  show StableHlo.after hostOps1 (W2 m ρ c) (Proc.devRef .tc main_v30) = _
  after_results
  rw [w2_arg6]
  rfl

set_option maxHeartbeats 1000000 in
theorem w3_v29 : W3 m ρ c (Proc.devRef .tc main_v29) = agg2 (aE m c) (hiddenK m c) := by
  show StableHlo.after hostOps1 (W2 m ρ c) (Proc.devRef .tc main_v29) = _
  after_results_simp
  rw [w2_v1, w2_v3, w2_v19]
  rfl

/-! ## The result -/

/-- THE RESULT ARRAY at the last boundary is two layers of the arguments, in the kernel's grouping. -/
theorem out_eq : W4 m ρ c (Proc.devRef .tc main_v31)
    = twoLayer (n := 100000) (d := 128) (h := 256) (k := 50) (agg1 (aE m c)) (agg2 (aE m c)) Region0.zc (aX m c)
        (tW1l m c) (tW1r m c) (bRow1 m c) (tW2l m c) (tW2r m c) (bRow2 m c) := by
  refine (W4_arr m ρ c 5).trans ((Region1.final (V3 m ρ) c).trans ?_)
  show lin (n := 100000) (d := 256) (h := 50) (W3 m ρ c (Proc.devRef .tc main_v29)) (W3 m ρ c (Proc.devRef .tc main_v19))
    (W3 m ρ c (Proc.devRef .tc main_v6)) (W3 m ρ c (Proc.devRef .tc main_v7)) (W3 m ρ c (Proc.devRef .tc main_v30)) = _
  rw [w3_v29, w3_v19, w3_v6, w3_v7, w3_v30]
  rfl

/-- The idealized kernel program's run with the result named as two layers of the arguments, the arguments
    unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31)
        = twoLayer (n := 100000) (d := 128) (h := 256) (k := 50) (agg1 (aE m c)) (agg2 (aE m c)) Region0.zc (aX m c)
            (tW1l m c) (tW1r m c) (bRow1 m c) (tW2l m c) (tW2r m c) (bRow2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (out_eq m ρ c), (h c).2⟩)
    (Cert.KernelIdeal.RunResult.run_result (F := Ideal) m ρ)

end Cert.KernelIdeal.Hand

end
-- ==== Proof.HostLayer.lean ====
/-
  The reference's layer as it is spelt on the host, read at an index: two matrix products of a whole
  array with a weight matrix, a bias ARRAY (the bias vector repeated along the rows) added to the first
  product, and the second product added last, is `Cert.Spec.linR`; the maximum against an array that holds
  one constant everywhere is `Cert.Spec.relu`.
-/
import proofs.«104418_j32238024524264_1_alg».proof.Proof.Spec

noncomputable section

open scoped BigOperators

namespace Cert.Spec

open Idealize.ShloMosaic Idealize.ShloMosaic.ValueIdx Cert.LibRowDot

variable {n d h : ℕ} (D : DotDims ⟨2, ![n, d]⟩ ⟨2, ![d, h]⟩ ⟨2, ![n, h]⟩)

/-- The host's layer is `linR` of its operands when the bias array repeats the bias vector along the rows. -/
theorem hostLayer_eq (hlc : D.lhsContracting = [1]) (hrc : D.rhsContracting = [0])
    (hln : D.lhsNonContracting = [0]) (hrn : D.rhsNonContracting = [1]) (hlb : D.lhsBatch = [])
    (hrb : D.rhsBatch = []) (a x : FVec Ideal ⟨2, ![n, d]⟩ .f32) (wl wr : FVec Ideal ⟨2, ![d, h]⟩ .f32)
    (bb : FVec Ideal ⟨2, ![n, h]⟩ .f32) (bv : Row h) (hbb : ∀ i : (⟨2, ![n, h]⟩ : Shape).Idx, bb i = bv (ix1 (i 1))) :
    addf (addf (Host.dotGeneral D none a wl) bb) (Host.dotGeneral D none x wr) = linR a x wl wr bv := by
  funext i
  simp only [Host.dotGeneral]
  rw [addf_apply, addf_apply, dotGeneral_apply D hlc hrc hln hrn hlb hrb, dotGeneral_apply D hlc hrc hln hrn hlb hrb]
  exact congrArg (fun z => rowDot a wl (i 0) (i 1) + z + rowDot x wr (i 0) (i 1)) (hbb i)

/-- The maximum against an array holding `z` everywhere is `relu z`. -/
theorem hostRelu_eq (y zb : FVec Ideal ⟨2, ![n, h]⟩ .f32) (z : EReal) (hz : ∀ i, zb i = z) :
    maximumf y zb = relu z y := by
  funext i
  rw [maximumf_apply]
  exact congrArg (fun w => max (y i) w) (hz i)

end Cert.Spec

end
-- ==== Proof.RefValue.lean ====
/-
  The reference program, read as a value.  Its run ends with the result array at one composed term of the
  eight arguments.  That term is two layers in the reference's grouping (`Cert.Spec.twoLayerR`): the
  aggregation of a feature matrix along the edges is ONE function of the edge array and the matrix (`agg1` for
  128 columns, `agg2` for 256: gather the source rows, add them into the destination rows of a zero array),
  used as a whole and never opened; each layer's two products and bias are read at an index
  (`Cert.Spec.hostLayer_eq`), the bias array being the bias vector repeated along the rows, and the maximum
  against the zero array is `Cert.Spec.relu` at the zero word's value.
-/
import proofs.«104418_j32238024524264_1_alg».proof.Defs
import proofs.«104418_j32238024524264_1_alg».proof.Proof.Gen.ReferenceIdeal.Run
import proofs.«104418_j32238024524264_1_alg».proof.Proof.HostLayer
import Idealize.ShloMosaic.Lib.Pipeline.Value

noncomputable section

namespace Cert.ReferenceIdeal.Hand

open Cert.ReferenceIdeal Cert.ReferenceIdeal.Gen Cert.ReferenceIdeal.Value
open Idealize.ShloMosaic Idealize.ShloMosaic.TcCoe Idealize.SL.Sem Idealize.ShloMosaic.ValueIdx
open Cert.Spec Cert.LibRowDot

/-- The edge array: row 0 the source nodes, row 1 the destination nodes. -/
abbrev Edges : Type := (⟨S2x640000, .i32⟩ : BufTy).Contents (Elt Ideal)

/-- The source nodes as a column, a negative one moved up by the node count. -/
def srcCol (ei : Edges) : (⟨S640000x1, .i32⟩ : BufTy).Contents (Elt Ideal) :=
  (broadcastInDim S640000x1 ![0] bcast_S640000_S640000x1_0 (select (cmpi .slt (shapeCast _ (extractStridedSlice S1x640000 ![0, 0] ei slices_S2x640000_S1x640000_0_0) shapeCasts_S1x640000_S640000) (broadcastInDim S640000 ![] bcast_S_S640000 (constantI S_ 32 0#32))) (addi (shapeCast _ (extractStridedSlice S1x640000 ![0, 0] ei slices_S2x640000_S1x640000_0_0) shapeCasts_S1x640000_S640000) (broadcastInDim S640000 ![] bcast_S_S640000 (constantI S_ 32 100000#32))) (shapeCast _ (extractStridedSlice S1x640000 ![0, 0] ei slices_S2x640000_S1x640000_0_0) shapeCasts_S1x640000_S640000)))

/-- The destination nodes as a column. -/
def dstCol (ei : Edges) : (⟨S640000x1, .i32⟩ : BufTy).Contents (Elt Ideal) :=
  (broadcastInDim S640000x1 ![0] bcast_S640000_S640000x1_0 (shapeCast _ (extractStridedSlice S1x640000 ![1, 0] ei slices_S2x640000_S1x640000_1_0) shapeCasts_S1x640000_S640000))

/-- Aggregation along the edges of a matrix of 128 columns: the source rows gathered and added into the
    destination rows of a zero array. -/
def agg1 (ei : Edges) (x : FVec Ideal S100000x128 .f32) : FVec Ideal S100000x128 .f32 :=
  Host.scatterAdd scatter_S100000x128_S640000x1_S640000x128_1_0_0_1 (broadcastInDim S100000x128 ![] bcast_S_S100000x128 (constant S_ .f32 0x00000000#32)) (dstCol ei) (Host.gather gather_S100000x128_S640000x1_S640000x128_1_0_n_n_0_1_1128 x (srcCol ei))

/-- The same for 256 columns. -/
def agg2 (ei : Edges) (y : FVec Ideal S100000x256 .f32) : FVec Ideal S100000x256 .f32 :=
  Host.scatterAdd scatter_S100000x256_S640000x1_S640000x256_1_0_0_1 (broadcastInDim S100000x256 ![] bcast_S_S100000x256 (constant S_ .f32 0x00000000#32)) (dstCol ei) (Host.gather gather_S100000x256_S640000x1_S640000x256_1_0_n_n_0_1_1256 y (srcCol ei))

/-- The value of the zero word. -/
abbrev z0 : EReal := Ideal.ofBits .f32 0x00000000#32

/-- The array of 256 columns that holds the zero word everywhere. -/
abbrev zeroArr : FVec Ideal S100000x256 .f32 :=
  broadcastInDim S100000x256 ![] bcast_S_S100000x256 (constant (F := Ideal) S_ .f32 0x00000000#32)

variable (m : (ℓ : Loc nD τ sig) → Buf (Elt Ideal) ℓ) (c : Dev nD)

/-! The eight arguments at their literal types. -/
abbrev aX : FVec Ideal S100000x128 .f32 := m ((c.tc : Thread nD τ).loc main_arg0)
abbrev aE : Edges := m ((c.tc : Thread nD τ).loc main_arg1)
abbrev aW1l : FVec Ideal S256x128 .f32 := m ((c.tc : Thread nD τ).loc main_arg2)
abbrev aB1 : FVec Ideal S256 .f32 := m ((c.tc : Thread nD τ).loc main_arg3)
abbrev aW1r : FVec Ideal S256x128 .f32 := m ((c.tc : Thread nD τ).loc main_arg4)
abbrev aW2l : FVec Ideal S50x256 .f32 := m ((c.tc : Thread nD τ).loc main_arg5)
abbrev aB2 : FVec Ideal S50 .f32 := m ((c.tc : Thread nD τ).loc main_arg6)
abbrev aW2r : FVec Ideal S50x256 .f32 := m ((c.tc : Thread nD τ).loc main_arg7)

/-- The weight matrices transposed, as the program transposes them. -/
abbrev tW1l : FVec Ideal S128x256 .f32 := transpose S128x256 [1, 0] (aW1l m c) transposes_S256x128_S128x256_1_0
abbrev tW1r : FVec Ideal S128x256 .f32 := transpose S128x256 [1, 0] (aW1r m c) transposes_S256x128_S128x256_1_0
abbrev tW2l : FVec Ideal S256x50 .f32 := transpose S256x50 [1, 0] (aW2l m c) transposes_S50x256_S256x50_1_0
abbrev tW2r : FVec Ideal S256x50 .f32 := transpose S256x50 [1, 0] (aW2r m c) transposes_S50x256_S256x50_1_0

/-- The bias vectors repeated along the rows. -/
abbrev biasArr1 : FVec Ideal S100000x256 .f32 :=
  broadcastInDim S100000x256 ![0, 1] bcast_S1x256_S100000x256_0_1 (broadcastInDim S1x256 ![1] bcast_S256_S1x256_1 (aB1 m c))
abbrev biasArr2 : FVec Ideal S100000x50 .f32 :=
  broadcastInDim S100000x50 ![0, 1] bcast_S1x50_S100000x50_0_1 (broadcastInDim S1x50 ![1] bcast_S50_S1x50_1 (aB2 m c))

/-- The hidden matrix as the host spells it. -/
def hiddenHost : FVec Ideal S100000x256 .f32 :=
  maximumf (addf (addf (Host.dotGeneral dot_S100000x128_S128x256_S100000x256_1_0_0_1_n_n none (agg1 (aE m c) (aX m c)) (tW1l m c)) (biasArr1 m c))
    (Host.dotGeneral dot_S100000x128_S128x256_S100000x256_1_0_0_1_n_n none (aX m c) (tW1r m c))) zeroArr

/-- The run's term, folded: the second layer over the hidden matrix and its aggregation. -/
theorem res_fold : res_main_v44 (F := Ideal) m c
    = addf (addf (Host.dotGeneral dot_S100000x256_S256x50_S100000x50_1_0_0_1_n_n none (agg2 (aE m c) (hiddenHost m c)) (tW2l m c)) (biasArr2 m c))
        (Host.dotGeneral dot_S100000x256_S256x50_S100000x50_1_0_0_1_n_n none (hiddenHost m c) (tW2r m c)) := by
  unfold res_main_v44 hiddenHost agg2 agg1 srcCol dstCol
  rfl

/-- The zero array holds the zero word's value everywhere. -/
theorem zeros_apply (i : S100000x256.Idx) : zeroArr i = z0 :=
  broadcastInDim_apply _ _ _ i ix0 (fun a => a.elim0)

/-- The first bias array repeats the bias vector along the rows. -/
theorem bias1_apply (i : S100000x256.Idx) : biasArr1 m c i = aB1 m c (ix1 (i 1)) :=
  (broadcastInDim_apply _ _ _ i (ix2 0 (i 1)) (fun a => by
    match a with
    | ⟨0, _⟩ => rfl
    | ⟨1, _⟩ => rfl)).trans
  (broadcastInDim_apply _ _ _ (ix2 0 (i 1)) (ix1 (i 1)) (fun a => by
    match a with
    | ⟨0, _⟩ => rfl))

/-- The second bias array likewise. -/
theorem bias2_apply (i : S100000x50.Idx) : biasArr2 m c i = aB2 m c (ix1 (i 1)) :=
  (broadcastInDim_apply _ _ _ i (ix2 0 (i 1)) (fun a => by
    match a with
    | ⟨0, _⟩ => rfl
    | ⟨1, _⟩ => rfl)).trans
  (broadcastInDim_apply _ _ _ (ix2 0 (i 1)) (ix1 (i 1)) (fun a => by
    match a with
    | ⟨0, _⟩ => rfl))

/-- The hidden matrix is the first layer under the clamp. -/
theorem hidden_eq : hiddenHost m c
    = relu z0 (linR (n := 100000) (d := 128) (h := 256) (agg1 (aE m c) (aX m c)) (aX m c) (tW1l m c) (tW1r m c) (aB1 m c)) :=
  (congrArg (fun y => maximumf y zeroArr)
    (hostLayer_eq dot_S100000x128_S128x256_S100000x256_1_0_0_1_n_n rfl rfl rfl rfl rfl rfl (agg1 (aE m c) (aX m c)) (aX m c) (tW1l m c) (tW1r m c)
      (biasArr1 m c) (aB1 m c) (bias1_apply m c))).trans
  (hostRelu_eq _ zeroArr z0 zeros_apply)

/-- THE RESULT: two layers in the reference's grouping. -/
theorem res_eq : res_main_v44 (F := Ideal) m c
    = twoLayerR (n := 100000) (d := 128) (h := 256) (k := 50) (agg1 (aE m c)) (agg2 (aE m c)) z0 (aX m c)
        (tW1l m c) (tW1r m c) (aB1 m c) (tW2l m c) (tW2r m c) (aB2 m c) :=
  (res_fold m c).trans
    ((hostLayer_eq dot_S100000x256_S256x50_S100000x50_1_0_0_1_n_n rfl rfl rfl rfl rfl rfl (agg2 (aE m c) (hiddenHost m c)) (hiddenHost m c) (tW2l m c) (tW2r m c)
      (biasArr2 m c) (aB2 m c) (bias2_apply m c)).trans
    (by rw [hidden_eq]; rfl))

/-- The reference's run with the result named as two layers of the arguments, the arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v44)
        = twoLayerR (n := 100000) (d := 128) (h := 256) (k := 50) (agg1 (aE m c)) (agg2 (aE m c)) z0 (aX m c)
            (tW1l m c) (tW1r m c) (aB1 m c) (tW2l m c) (tW2r m c) (aB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (res_eq m c), (h c).2⟩) (Cert.ReferenceIdeal.Value.run (F := Ideal) m ρ)

end Cert.ReferenceIdeal.Hand

end
-- ==== Proof.Bridge.lean ====
/-
  The two programs' results are one function of the eight argument arrays.
  Each side's result is written as a function `outOf` of the arrays.  The two functions use the same
  aggregation along the edges (the same gather and scatter-add of the same index columns: equal by unfolding),
  the same transposed weights and the same constant under the clamp; they differ in the grouping of each
  layer's three summands and in the bias, a vector on the reference's side and that vector reshaped to a
  row on the kernel's.  The reshaped row at `(0, q)` is the vector at `q` (same row-major position), so
  `Cert.Spec.twoLayerR_eq_twoLayer` — commutativity and associativity of addition of extended reals —
  identifies the two.
-/
import proofs.«104418_j32238024524264_1_alg».proof.Proof.KernelValue
import proofs.«104418_j32238024524264_1_alg».proof.Proof.RefValue

noncomputable section

open Idealize.ShloMosaic Idealize.ShloMosaic.TcCoe Idealize.SL.Sem Idealize.ShloMosaic.ValueIdx Cert.Spec Cert.LibRowDot

namespace Cert.ReferenceIdeal.Hand

open Cert.ReferenceIdeal Cert.ReferenceIdeal.Gen

/-- The reference's result as a function of the eight argument arrays. -/
def outOf (x : FVec Ideal S100000x128 .f32) (ei : Edges) (w1l : FVec Ideal S256x128 .f32) (b1 : FVec Ideal S256 .f32)
    (w1r : FVec Ideal S256x128 .f32) (w2l : FVec Ideal S50x256 .f32) (b2 : FVec Ideal S50 .f32)
    (w2r : FVec Ideal S50x256 .f32) : FVec Ideal S100000x50 .f32 :=
  twoLayerR (n := 100000) (d := 128) (h := 256) (k := 50) (agg1 ei) (agg2 ei) z0 x
    (transpose S128x256 [1, 0] w1l transposes_S256x128_S128x256_1_0) (transpose S128x256 [1, 0] w1r transposes_S256x128_S128x256_1_0) b1
    (transpose S256x50 [1, 0] w2l transposes_S50x256_S256x50_1_0) (transpose S256x50 [1, 0] w2r transposes_S50x256_S256x50_1_0) b2

end Cert.ReferenceIdeal.Hand

namespace Cert.KernelIdeal.Hand

open Cert.KernelIdeal Cert.KernelIdeal.Gen

/-- The bias vector of the first layer as a row. -/
abbrev rowOf1 (b1 : FVec Ideal S256 .f32) : FVec Ideal S1x256 .f32 := shapeCast S1x256 b1 shapeCasts_S256_S1x256
/-- The bias vector of the second layer as a row. -/
abbrev rowOf2 (b2 : FVec Ideal S50 .f32) : FVec Ideal S1x50 .f32 := shapeCast S1x50 b2 shapeCasts_S50_S1x50

/-- The kernel program's result as a function of the eight argument arrays. -/
def outOf (x : FVec Ideal S100000x128 .f32) (ei : Edges) (w1l : FVec Ideal S256x128 .f32) (b1 : FVec Ideal S256 .f32)
    (w1r : FVec Ideal S256x128 .f32) (w2l : FVec Ideal S50x256 .f32) (b2 : FVec Ideal S50 .f32)
    (w2r : FVec Ideal S50x256 .f32) : FVec Ideal S100000x50 .f32 :=
  twoLayer (n := 100000) (d := 128) (h := 256) (k := 50) (agg1 ei) (agg2 ei) Region0.zc x
    (transpose S128x256 [1, 0] w1l transposes_S256x128_S128x256_1_0) (transpose S128x256 [1, 0] w1r transposes_S256x128_S128x256_1_0) (rowOf1 b1)
    (transpose S256x50 [1, 0] w2l transposes_S50x256_S256x50_1_0) (transpose S256x50 [1, 0] w2r transposes_S50x256_S256x50_1_0) (rowOf2 b2)

/-- The reshaped bias row at `(0, q)` is the bias vector at `q`. -/
theorem rowOf1_apply (b1 : FVec Ideal S256 .f32) (q : Fin 256) : rowOf1 b1 (ix2 0 q) = b1 (ix1 q) :=
  shapeCast_apply b1 _ (ix2 0 q) (ix1 q) (by
    rw [Shape.rowMajor_val_one, Shape.rowMajor_val_two]
    show q.val = (0 : Fin 1).val * 256 + q.val
    simp)

theorem rowOf2_apply (b2 : FVec Ideal S50 .f32) (q : Fin 50) : rowOf2 b2 (ix2 0 q) = b2 (ix1 q) :=
  shapeCast_apply b2 _ (ix2 0 q) (ix1 q) (by
    rw [Shape.rowMajor_val_one, Shape.rowMajor_val_two]
    show q.val = (0 : Fin 1).val * 50 + q.val
    simp)

end Cert.KernelIdeal.Hand

namespace Cert.Bridge

/-- THE BRIDGE: on the same eight arrays the reference's result is the kernel program's. -/
theorem outOf_eq (x : FVec Ideal Cert.KernelIdeal.S100000x128 .f32) (ei : Cert.KernelIdeal.Hand.Edges)
    (w1l : FVec Ideal Cert.KernelIdeal.S256x128 .f32) (b1 : FVec Ideal Cert.KernelIdeal.S256 .f32)
    (w1r : FVec Ideal Cert.KernelIdeal.S256x128 .f32) (w2l : FVec Ideal Cert.KernelIdeal.S50x256 .f32)
    (b2 : FVec Ideal Cert.KernelIdeal.S50 .f32) (w2r : FVec Ideal Cert.KernelIdeal.S50x256 .f32) :
    Cert.ReferenceIdeal.Hand.outOf x ei w1l b1 w1r w2l b2 w2r = Cert.KernelIdeal.Hand.outOf x ei w1l b1 w1r w2l b2 w2r := by
  unfold Cert.ReferenceIdeal.Hand.outOf Cert.KernelIdeal.Hand.outOf
  exact twoLayerR_eq_twoLayer (n := 100000) (d := 128) (h := 256) (k := 50)
    (Cert.KernelIdeal.Hand.agg1 ei) (Cert.KernelIdeal.Hand.agg2 ei) Cert.KernelIdeal.Region0.zc x _ _ b1
    (Cert.KernelIdeal.Hand.rowOf1 b1) _ _ b2 (Cert.KernelIdeal.Hand.rowOf2 b2)
    (Cert.KernelIdeal.Hand.rowOf1_apply b1) (Cert.KernelIdeal.Hand.rowOf2_apply b2)

end Cert.Bridge

end
-- ==== Proof.lean ====
/-
  The certificate of the two-layer graph convolution: the kernel program (two row-blocked kernel regions among
  the host's gathers and scatter-adds) against the plain reference.

  Frames.  The kernel program's two frames are the generated frames of its two regions and host stretches; the
  reference has no kernel, and its frame is its run with the result dropped.

  Preservation.  The idealizing pass rewrote nothing, so there is nothing to preserve.

  Equivalence over the extended reals.  The idealized kernel program ends with its result array at two layers
  of the eight arguments in the kernel's grouping, (a·Wl + x·Wr) + b per layer with the first layer clamped
  (`Cert.KernelIdeal.Hand.run_value`); the reference ends at the same two layers in its own grouping,
  (a·Wl + b) + x·Wr (`Cert.ReferenceIdeal.Hand.run_value`).  On memories that agree on the arguments these are
  one function of the arguments (`Cert.Bridge.outOf_eq`): only commutativity and associativity of addition are
  used, which hold for all extended reals, so the finiteness of the inputs is never opened.
-/
import proofs.«104418_j32238024524264_1_alg».proof.Defs
import proofs.«104418_j32238024524264_1_alg».proof.Proof.Gen.Kernel
import proofs.«104418_j32238024524264_1_alg».proof.Proof.Gen.Kernel.Skeleton
import proofs.«104418_j32238024524264_1_alg».proof.Proof.Gen.Kernel.Launch
import proofs.«104418_j32238024524264_1_alg».proof.Proof.Gen.Kernel.Points
import proofs.«104418_j32238024524264_1_alg».proof.Proof.Gen.Kernel.Frame
import proofs.«104418_j32238024524264_1_alg».proof.Proof.Gen.KernelIdeal
import proofs.«104418_j32238024524264_1_alg».proof.Proof.Gen.KernelIdeal.Skeleton
import proofs.«104418_j32238024524264_1_alg».proof.Proof.Gen.KernelIdeal.Launch
import proofs.«104418_j32238024524264_1_alg».proof.Proof.Gen.KernelIdeal.Points
import proofs.«104418_j32238024524264_1_alg».proof.Proof.Gen.KernelIdeal.Frame
import proofs.«104418_j32238024524264_1_alg».proof.Proof.Gen.ReferenceIdeal
import proofs.«104418_j32238024524264_1_alg».proof.Proof.Gen.ReferenceIdeal.Run
import proofs.«104418_j32238024524264_1_alg».proof.Proof.Gen.Pre_finite_inputs
import proofs.«104418_j32238024524264_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at ONE function of the arguments. -/
theorem algebraic : Cert.algebraic_KernelIdeal_ReferenceIdeal := by
  intro m ρ m' ρ' _ hagree
  refine ⟨fun c => Cert.KernelIdeal.Hand.outOf (Cert.KernelIdeal.Hand.aX m c) (Cert.KernelIdeal.Hand.aE m c)
      (Cert.KernelIdeal.Hand.aW1l m c) (Cert.KernelIdeal.Hand.aB1 m c) (Cert.KernelIdeal.Hand.aW1r m c)
      (Cert.KernelIdeal.Hand.aW2l m c) (Cert.KernelIdeal.Hand.aB2 m c) (Cert.KernelIdeal.Hand.aW2r m c),
    Cert.KernelIdeal.Hand.run_value m ρ, ?_⟩
  refine (θ_run Cert.ReferenceIdeal.defs _ _).mono (fun _ h c => ⟨(h c).1.trans ?_, (h c).2⟩)
    (Cert.ReferenceIdeal.Hand.run_value m' ρ')
  obtain ⟨h0, h1, h2, h3, h4, h5, h6, h7⟩ := hagree c
  show Cert.ReferenceIdeal.Hand.outOf (Cert.ReferenceIdeal.Hand.aX m' c) (Cert.ReferenceIdeal.Hand.aE m' c)
      (Cert.ReferenceIdeal.Hand.aW1l m' c) (Cert.ReferenceIdeal.Hand.aB1 m' c) (Cert.ReferenceIdeal.Hand.aW1r m' c)
      (Cert.ReferenceIdeal.Hand.aW2l m' c) (Cert.ReferenceIdeal.Hand.aB2 m' c) (Cert.ReferenceIdeal.Hand.aW2r m' c) = _
  have e0 : Cert.ReferenceIdeal.Hand.aX m' c = Cert.KernelIdeal.Hand.aX m c := h0
  have e1 : Cert.ReferenceIdeal.Hand.aE m' c = Cert.KernelIdeal.Hand.aE m c := h1
  have e2 : Cert.ReferenceIdeal.Hand.aW1l m' c = Cert.KernelIdeal.Hand.aW1l m c := h2
  have e3 : Cert.ReferenceIdeal.Hand.aB1 m' c = Cert.KernelIdeal.Hand.aB1 m c := h3
  have e4 : Cert.ReferenceIdeal.Hand.aW1r m' c = Cert.KernelIdeal.Hand.aW1r m c := h4
  have e5 : Cert.ReferenceIdeal.Hand.aW2l m' c = Cert.KernelIdeal.Hand.aW2l m c := h5
  have e6 : Cert.ReferenceIdeal.Hand.aB2 m' c = Cert.KernelIdeal.Hand.aB2 m c := h6
  have e7 : Cert.ReferenceIdeal.Hand.aW2r m' c = Cert.KernelIdeal.Hand.aW2r m c := h7
  rw [e0, e1, e2, e3, e4, e5, e6, e7]
  exact Cert.Bridge.outOf_eq _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
